-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg1 : IVec S640000 32) (main_arg13 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  let main_c_22 : IVec S_ 32 := constantI S_ 32 0#32
  let main_v59 : IVec S640000 32 := broadcastInDim S640000 ![] bcast_S_S640000 main_c_22
  let main_v60 : IVec S640000 1 := cmpi .sge main_arg1 main_v59
  let main_c_23 : IVec S_ 1 := constantI S_ 1 1#1
  let main_v61 : IVec S_ 1 := (fun x v => Host.reduce IntOp.andi x v reducesTo_S640000_S_d0 h_S_) main_v60 main_c_23
  let main_v62 : IVec S_ 1 := andi main_v58 main_v61
  main_v62

def fn_part2 {F : FTy → Type} [FloatOps F] (main_arg1 : IVec S640000 32) (main_arg9 : FVec F S128 .f32) (main_arg10 : FVec F S128x128 .f32) (main_arg11 : FVec F S128 .f32) (main_arg12 : FVec F S128x40 .f32) (main_arg13 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg1 main_arg13 main_v48 main_v49 main_v50

def fn_part1 {F : FTy → Type} [FloatOps F] (main_arg1 : IVec S640000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x128 .f32) (main_arg1 : IVec S640000 32) (main_arg2 : IVec S640000 32) (main_arg3 : FVec F S640000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S640000x1 : Shape := ⟨2, ![640000, 1]⟩
abbrev S640000x128 : Shape := ⟨2, ![640000, 128]⟩
abbrev S_ : Shape := ⟨0, ![]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 54
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S640000x1, .i32⟩
  | .hbm, ⟨15, _⟩ => ⟨S640000x128, .f32⟩
  | .hbm, ⟨16, _⟩ => ⟨S640000x1, .f32⟩
  | .hbm, ⟨17, _⟩ => ⟨S640000x128, .f32⟩
  | .hbm, ⟨18, _⟩ => ⟨S640000x128, .f32⟩
  | .hbm, ⟨19, _⟩ => ⟨S_, .f32⟩
  | .hbm, ⟨20, _⟩ => ⟨S50000x128, .f32⟩
  | .hbm, ⟨21, _⟩ => ⟨S640000x1, .i32⟩
  | .hbm, ⟨22, _⟩ => ⟨S50000x128, .f32⟩
  | .hbm, ⟨23, _⟩ => ⟨S128x128, .bf16⟩
  | .hbm, ⟨24, _⟩ => ⟨S1x128, .f32⟩
  | .hbm, ⟨25, _⟩ => ⟨S50000x128, .f32⟩
  | .hbm, ⟨26, _⟩ => ⟨S640000x1, .i32⟩
  | .hbm, ⟨27, _⟩ => ⟨S640000x128, .f32⟩
  | .hbm, ⟨28, _⟩ => ⟨S640000x1, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S50000x128, .f32⟩
  | .hbm, ⟨33, _⟩ => ⟨S640000x1, .i32⟩
  | .hbm, ⟨34, _⟩ => ⟨S50000x128, .f32⟩
  | .hbm, ⟨35, _⟩ => ⟨S128x128, .bf16⟩
  | .hbm, ⟨36, _⟩ => ⟨S1x128, .f32⟩
  | .hbm, ⟨37, _⟩ => ⟨S50000x128, .f32⟩
  | .hbm, ⟨38, _⟩ => ⟨S640000x1, .i32⟩
  | .hbm, ⟨39, _⟩ => ⟨S640000x128, .f32⟩
  | .hbm, ⟨40, _⟩ => ⟨S640000x1, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S50000x128, .f32⟩
  | .hbm, ⟨45, _⟩ => ⟨S640000x1, .i32⟩
  | .hbm, ⟨46, _⟩ => ⟨S50000x128, .f32⟩
  | .hbm, ⟨47, _⟩ => ⟨S128x128, .bf16⟩
  | .hbm, ⟨48, _⟩ => ⟨S128x128, .bf16⟩
  | .hbm, ⟨49, _⟩ => ⟨S128x40, .bf16⟩
  | .hbm, ⟨50, _⟩ => ⟨S1x128, .f32⟩
  | .hbm, ⟨51, _⟩ => ⟨S1x128, .f32⟩
  | .hbm, ⟨52, _⟩ => ⟨S1x40, .f32⟩
  | .hbm, ⟨53, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x40, .bf16⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x40 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x40.size a ≤ S128x40.size a
  hwx2_6 : ∀ i : grid2.Coords, EltTy.bits .bf16 = 32 ∨ (Rect.block (s := S128x40) S128x40.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x40.size a ≤ S1x40.size a
  hwx2_7 : ∀ i : grid2.Coords, EltTy.bits .f32 = 32 ∨ (Rect.block (s := S1x40) S1x40.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x40.size a ≤ S50000x40.size a
  hwx2_8 : ∀ i : grid2.Coords, EltTy.bits .f32 = 32 ∨ (Rect.block (s := S50000x40) S5000x40.size (cc2_transform_8 i) (hinb2_8 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S128x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S1x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v33) S5000x40.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S50000x40 : Shape := ⟨2, ![50000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x1, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S50000x128, .f32⟩
  | .hbm, ⟨32, _⟩ => ⟨S640000x1, .i32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x1, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S50000x128, .f32⟩
  | .hbm, ⟨55, _⟩ => ⟨S640000x1, .i32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x128, .f32⟩
  | .hbm, ⟨73, _⟩ => ⟨S640000x1, .f32⟩
  | .hbm, ⟨74, _⟩ => ⟨S640000x128, .f32⟩
  | .hbm, ⟨75, _⟩ => ⟨S640000x128, .f32⟩
  | .hbm, ⟨76, _⟩ => ⟨S_, .f32⟩
  | .hbm, ⟨77, _⟩ => ⟨S50000x128, .f32⟩
  | .hbm, ⟨78, _⟩ => ⟨S640000x1, .i32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.Spec.lean ====
/-
  The three dense stages of the network, each as ONE function of an output index over the extended reals.

  A dense layer sends a rows×inner array a, an inner×columns array w and a bias b (one entry per column) to
  the array whose entry (p, q) is  Σ_k a(p, k) · w(k, q) + b(q).  The two interior layers follow it with a
  maximum against the zero word; the last stage adds two such layers entry by entry, takes the maximum
  against the zero word, and feeds the result to a third dense layer.  Nothing here names a program: the
  extents are variables, and the arrays are plain functions of an index.
-/
import Idealize.ShloMosaic.PureOps.Ideal.Laws
import Idealize.ShloMosaic.Lib.ValueIdx

noncomputable section

open scoped BigOperators

namespace Cert.Dense

open Idealize.ShloMosaic Idealize.ShloMosaic.ValueIdx

variable {M K N : Nat}

/-- The word every rectification compares against: the single-precision zero pattern, read as an extended real.
    It is the same word on both sides of every equation below and is never evaluated. -/
abbrev zeroWord : EReal := Ideal.ofBits .f32 0x00000000#32

/-- Entry (p, q) of a dense layer: row p of `a` against column q of `w`, plus the bias at q. -/
def layer (a : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun j => (∑ k : Fin K, a (ix2 (j 0) k) * w (ix2 k (j 1))) + b (ix1 (j 1))

/-- A dense layer followed by the maximum against the zero word. -/
def rectLayer (a : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun j => max (layer a w b j) zeroWord

/-- The last stage: the layer of the aggregated features `g` (weights `w3`, bias `b3`) PLUS the residual layer of
    the input features `x` (weights `wr`, bias `br`), in that order, rectified, then the output layer
    (weights `wo`, bias `bo`). -/
def head {C : Nat} (x g : (⟨2, ![M, K]⟩ : Shape).Idx → EReal)
    (wr : (⟨2, ![K, N]⟩ : Shape).Idx → EReal) (br : (⟨1, ![N]⟩ : Shape).Idx → EReal)
    (w3 : (⟨2, ![K, N]⟩ : Shape).Idx → EReal) (b3 : (⟨1, ![N]⟩ : Shape).Idx → EReal)
    (wo : (⟨2, ![N, C]⟩ : Shape).Idx → EReal) (bo : (⟨1, ![C]⟩ : Shape).Idx → EReal) :
    (⟨2, ![M, C]⟩ : Shape).Idx → EReal :=
  layer (fun i => max (layer g w3 b3 i + layer x wr br i) zeroWord) wo bo

/-- A dense layer reads only row j₀ of its left operand: two left operands that agree on that row give the
    same entry. -/
theorem layer_congr_row (a a' : (⟨2, ![M, K]⟩ : Shape).Idx → EReal) (w : (⟨2, ![K, N]⟩ : Shape).Idx → EReal)
    (b : (⟨1, ![N]⟩ : Shape).Idx → EReal) (j : (⟨2, ![M, N]⟩ : Shape).Idx)
    (h : ∀ k : Fin K, a (ix2 (j 0) k) = a' (ix2 (j 0) k)) : layer a w b j = layer a' w b j := by
  unfold layer
  exact congrArg (· + b (ix1 (j 1))) (Finset.sum_congr rfl fun k _ => congrArg (· * w (ix2 k (j 1))) (h k))

/-- The last stage reads only row j₀ of its two feature operands and column j₁ of its output weights: two
    settings that agree there — the feature rows possibly taken from arrays of another height — give the same
    entry. This is what lets a block of rows stand for the whole array. -/
theorem head_congr {M M' C : Nat}
    (x g : (⟨2, ![M, K]⟩ : Shape).Idx → EReal) (x' g' : (⟨2, ![M', K]⟩ : Shape).Idx → EReal)
    (wr wr' w3 w3' : (⟨2, ![K, N]⟩ : Shape).Idx → EReal) (br br' b3 b3' : (⟨1, ![N]⟩ : Shape).Idx → EReal)
    (wo wo' : (⟨2, ![N, C]⟩ : Shape).Idx → EReal) (bo bo' : (⟨1, ![C]⟩ : Shape).Idx → EReal)
    (j : (⟨2, ![M, C]⟩ : Shape).Idx) (j' : (⟨2, ![M', C]⟩ : Shape).Idx)
    (hx : ∀ k : Fin K, x (ix2 (j 0) k) = x' (ix2 (j' 0) k))
    (hg : ∀ k : Fin K, g (ix2 (j 0) k) = g' (ix2 (j' 0) k))
    (hwr : wr = wr') (hbr : br = br') (hw3 : w3 = w3') (hb3 : b3 = b3') (hwo : wo = wo') (hbo : bo = bo')
    (hc : (j 1).val = (j' 1).val) :
    head x g wr br w3 b3 wo bo j = head x' g' wr' br' w3' b3' wo' bo' j' := by
  subst hwr hbr hw3 hb3 hwo hbo
  have hcol : (ix1 (j 1) : (⟨1, ![C]⟩ : Shape).Idx) = ix1 (j' 1) := congrArg ix1 (Fin.ext hc)
  unfold head layer
  refine congrArg₂ (· + ·) (Finset.sum_congr rfl fun k _ => ?_) (congrArg bo hcol)
  refine congrArg₂ (· * ·) (congrArg (max · zeroWord) (congrArg₂ (· + ·) ?_ ?_))
    (congrArg wo (congrArg (ix2 k) (Fin.ext hc)))
  · exact congrArg (· + b3 (ix1 k)) (Finset.sum_congr rfl fun k' _ => congrArg (· * w3 (ix2 k' k)) (hg k'))
  · exact congrArg (· + br (ix1 k)) (Finset.sum_congr rfl fun k' _ => congrArg (· * wr (ix2 k' k)) (hx k'))

end Cert.Dense

end
-- ==== Proof.LibDenseLayer.lean ====
/-
  A dense layer read at an index, from the two ways a program spells one.

  On a compute core a layer is a product into the zero accumulator of the (narrowed) left operand with the
  weights, plus the bias, kept as a 1×N row, broadcast along the rows.  On the host it is the host's product
  plus the bias, a length-N vector, broadcast first to a 1×N row and then along the rows.  Over the extended
  reals narrowing is the identity and both products are the sum over the inner coordinate, so both spellings
  are `Dense.layer` at every index.  The rectification that follows a layer is, in both spellings, the maximum
  against the zero word.  The extents are variables; nothing here names a program.
-/
import Idealize.ShloMosaic.PureOps.Ideal.Laws
import Idealize.ShloMosaic.Lib.ValueIdx
import Idealize.ShloMosaic.Lib.Pipeline.Value
import proofs.«405072_j45311904973172_2_alg».proof.Proof.LibPlainDot
import proofs.«405072_j45311904973172_2_alg».proof.Proof.Spec

noncomputable section

open scoped BigOperators

namespace Cert.LibDenseLayer

open Idealize.ShloMosaic Idealize.ShloMosaic.ValueIdx Cert.Dense

variable {M K N : Nat}

/-- A bias kept as a 1×N array, as a function of the column. -/
def rowOf (B : (⟨2, ![1, N]⟩ : Shape).Idx → EReal) : (⟨1, ![N]⟩ : Shape).Idx → EReal := fun q => B (ix2 0 (q 0))

/-- A 1×N row broadcast along M rows, read at (p, q), is the row at q. -/
theorem rowBroadcast_apply (B : (⟨2, ![1, N]⟩ : Shape).Idx → EReal)
    (h : (⟨2, ![1, N]⟩ : Shape).Broadcasts ⟨2, ![M, N]⟩) (j : (⟨2, ![M, N]⟩ : Shape).Idx) :
    broadcastTo ⟨2, ![M, N]⟩ B h j = B (ix2 0 (j 1)) := by
  refine broadcastTo_apply B h j (ix2 0 (j 1)) (fun a => ?_)
  match a with
  | ⟨0, _⟩ => exact (if_pos rfl).symm
  | ⟨1, _⟩ =>
    show (j 1).val = if N = 1 then 0 else (j 1).val
    split
    · have := idx2_lt1 j; omega
    · rfl

/-- THE CORE'S SPELLING: the product into the zero accumulator of the narrowed left operand with the weights, plus
    the bias row broadcast along the rows, is the dense layer at every index. -/
theorem coreLayer_apply (prec : Option ContractPrecision) (a : FVec Ideal ⟨2, ![M, K]⟩ .f32)
    (w : FVec Ideal ⟨2, ![K, N]⟩ .bf16) (B : FVec Ideal ⟨2, ![1, N]⟩ .f32) (hlt : FTy.bits .bf16 < FTy.bits .f32)
    (hb : (⟨2, ![1, N]⟩ : Shape).Broadcasts ⟨2, ![M, N]⟩) (j : (⟨2, ![M, N]⟩ : Shape).Idx) :
    addf (matmul (DotDims.plain M K N) prec (truncf .bf16 a hlt) w (constant ⟨2, ![M, N]⟩ .f32 0x00000000#32))
        (broadcastTo ⟨2, ![M, N]⟩ B hb) j
      = layer a w (rowOf B) j := by
  rw [addf_apply, rowBroadcast_apply]
  exact congrArg (· + B (ix2 0 (j 1))) (Cert.LibPlainDot.matmul_zero_apply prec (truncf .bf16 a hlt) w j)

/-- THE HOST'S SPELLING: the host's product plus the bias vector broadcast to a row and then along the rows is the
    dense layer at every index. -/
theorem hostLayer_apply (prec : Option ContractPrecision) (a : FVec Ideal ⟨2, ![M, K]⟩ .f32)
    (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (j : (⟨2, ![M, N]⟩ : Shape).Idx) :
    addf (Host.dotGeneral (DotDims.plain M K N) prec a w)
        (broadcastInDim ⟨2, ![M, N]⟩ ![0, 1] h2 (broadcastInDim ⟨2, ![1, N]⟩ ![1] h1 b)) j
      = layer a w b j := by
  rw [addf_apply]
  have e2 : broadcastInDim ⟨2, ![M, N]⟩ ![0, 1] h2 (broadcastInDim ⟨2, ![1, N]⟩ ![1] h1 b) j
      = broadcastInDim ⟨2, ![1, N]⟩ ![1] h1 b (ix2 0 (j 1)) :=
    broadcastInDim_apply ![0, 1] h2 _ j (ix2 0 (j 1)) (fun a => by
      match a with
      | ⟨0, _⟩ => exact (if_pos rfl).symm
      | ⟨1, _⟩ =>
        show (j 1).val = if N = 1 then 0 else (j 1).val
        split
        · have := idx2_lt1 j; omega
        · rfl)
  have e1 : broadcastInDim ⟨2, ![1, N]⟩ ![1] h1 b (ix2 0 (j 1)) = b (ix1 (j 1)) :=
    broadcastInDim_apply ![1] h1 b (ix2 0 (j 1)) (ix1 (j 1)) (fun a => by
      match a with
      | ⟨0, _⟩ =>
        show (j 1).val = if N = 1 then 0 else (j 1).val
        split
        · have := idx2_lt1 j; omega
        · rfl)
  rw [e2, e1]
  exact congrArg (· + b (ix1 (j 1))) (Cert.LibPlainDot.dotGeneral_apply prec .single a w j)

/-- The core's rectification: the maximum against the splat of the zero word. -/
theorem coreRect_apply {s : Shape} (X : FVec Ideal s .f32) (j : s.Idx) :
    maximumf X (broadcast s (Scalar.ofBits (F := Ideal) .f32 0x00000000#32)) j = max (X j) zeroWord := rfl

/-- The host's rectification: the maximum against the zero constant broadcast to the shape. -/
theorem hostRect_apply {s : Shape} (X : FVec Ideal s .f32)
    (h : (⟨0, ![]⟩ : Shape).BroadcastsInDim s ![]) (j : s.Idx) :
    maximumf X (broadcastInDim s ![] h (constant ⟨0, ![]⟩ .f32 0x00000000#32)) j = max (X j) zeroWord := by
  rw [maximumf_apply]
  exact congrArg (max (X j))
    (broadcastInDim_apply _ h (constant (F := Ideal) ⟨0, ![]⟩ .f32 0x00000000#32) j (fun a => a.elim0) (fun a => a.elim0))

end Cert.LibDenseLayer

end
-- ==== Proof.KernelBody.lean ====
/-
  What each kernel body stores, at an index, over the extended reals.

  Each of the three bodies loads its blocks whole, computes one value and stores it whole.  For the two interior
  kernels that value is, at row p and column q of the block, the rectified dense layer of the loaded feature
  block against the loaded weights and bias row; for the last kernel it is the output layer of the rectified
  sum of two dense layers (aggregated features against the third layer's weights, plus input features against the
  residual weights).  The identity reshapes of the loaded blocks and the narrowing of the left operands disappear
  over the extended reals, and the product into the zero accumulator is the plain sum over the inner coordinate.
-/
import proofs.«405072_j45311904973172_2_alg».proof.Proof.Gen.KernelIdeal.Skeleton
import proofs.«405072_j45311904973172_2_alg».proof.Proof.LibDenseLayer
import Idealize.ShloMosaic.Lib.Pipeline.Value

noncomputable section

namespace Cert.KernelIdeal.Body

open Idealize.ShloMosaic Idealize.ShloMosaic.ValueIdx Cert.KernelIdeal Cert.KernelIdeal.Gen Cert.Dense Cert.LibDenseLayer

/-- The printed 5000×128 by 128×128 contraction is the plain rows-by-columns pattern. -/
theorem dot128 : dot_S5000x128_S128x128_S5000x128_1_0_0_1_n_n = DotDims.plain 5000 128 128 := rfl

/-- The printed 5000×128 by 128×40 contraction is the plain rows-by-columns pattern. -/
theorem dot40 : dot_S5000x128_S128x40_S5000x40_1_0_0_1_n_n = DotDims.plain 5000 128 40 := rfl

/-- The first interior kernel's stored value: the rectified dense layer of its three loaded blocks. -/
theorem interior0_apply (x0 : Vec Ideal S5000x128 .f32) (x1 : Vec Ideal S128x128 .bf16) (x2 : Vec Ideal S1x128 .f32)
    (j : S5000x128.Idx) : k0_pay1 (F := Ideal) x0 x1 x2 j = rectLayer x0 x1 (rowOf x2) j := by
  unfold k0_pay1 rectLayer
  simp only [shapeCast_self]
  rw [dot128, coreRect_apply]
  exact congrArg (max · zeroWord) (coreLayer_apply none x0 x1 x2 bitsLt_bf16_f32 broadcasts_S1x128_S5000x128 j)

/-- The second interior kernel's stored value: the same function of its own blocks. -/
theorem interior1_apply (x0 : Vec Ideal S5000x128 .f32) (x1 : Vec Ideal S128x128 .bf16) (x2 : Vec Ideal S1x128 .f32)
    (j : S5000x128.Idx) : k1_pay1 (F := Ideal) x0 x1 x2 j = rectLayer x0 x1 (rowOf x2) j := by
  unfold k1_pay1 rectLayer
  simp only [shapeCast_self]
  rw [dot128, coreRect_apply]
  exact congrArg (max · zeroWord) (coreLayer_apply none x0 x1 x2 bitsLt_bf16_f32 broadcasts_S1x128_S5000x128 j)

/-- The last kernel's stored value: the output layer of the rectified sum of the third layer (of the aggregated
    block `g`) and the residual layer (of the input block `x`), the third layer first in the sum. -/
theorem last_apply (x g : Vec Ideal S5000x128 .f32) (wr : Vec Ideal S128x128 .bf16) (br : Vec Ideal S1x128 .f32)
    (w3 : Vec Ideal S128x128 .bf16) (b3 : Vec Ideal S1x128 .f32) (wo : Vec Ideal S128x40 .bf16) (bo : Vec Ideal S1x40 .f32)
    (j : S5000x40.Idx) :
    k2_pay1 (F := Ideal) x g wr br w3 b3 wo bo j = head x g wr (rowOf br) w3 (rowOf b3) wo (rowOf bo) j := by
  unfold k2_pay1 head
  simp only [shapeCast_self]
  rw [dot128, dot40]
  refine (coreLayer_apply none _ wo bo bitsLt_bf16_f32 broadcasts_S1x40_S5000x40 j).trans ?_
  refine congrArg (fun a => layer a wo (rowOf bo) j) (funext fun i => ?_)
  rw [coreRect_apply]
  refine congrArg (max · zeroWord) ?_
  rw [addf_apply]
  exact congrArg₂ (· + ·) (coreLayer_apply none g w3 b3 bitsLt_bf16_f32 broadcasts_S1x128_S5000x128 i)
    (coreLayer_apply none x wr br bitsLt_bf16_f32 broadcasts_S1x128_S5000x128 i)

end Cert.KernelIdeal.Body

end
-- ==== Proof.KRegion0.lean ====
/-
  The first interior kernel's launch, read as a value: its result array after the run.

  The grid has ten points; point t reads rows 5000·t … 5000·t + 4999 of the feature array (all 128 columns), the
  whole 128×128 weight array and the whole 1×128 bias row, and writes back the same rows of the result array.
  What it writes is the rectified dense layer of what it read, and a dense layer's row p depends on row p of
  its left operand only; so block t of the result is block t of ONE function of the three whole arrays, the
  rectified dense layer of the feature array.  The ten blocks tile the 50000 rows, hence the result array IS
  that function.  Stated at any contents `V` the launch may be entered from.
-/
import proofs.«405072_j45311904973172_2_alg».proof.Proof.Gen.KernelIdeal.Frame
import proofs.«405072_j45311904973172_2_alg».proof.Proof.KernelBody
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Dense Cert.LibDenseLayer

variable (V : (c : Dev nD) → (b : Ref sig .tc) → Buf (Elt Ideal) ((c : Thread nD τ).loc b))

theorem origin : (![0, 0] : Fin 2 → Nat) = fun _ => 0 := funext fun a => by fin_cases a <;> rfl

/-- The launch's result as a function of the three arrays it reads: the rectified dense layer. -/
abbrev G (A : S50000x128.Idx → Elt Ideal .f32) (W : S128x128.Idx → Elt Ideal .bf16) (B : S1x128.Idx → Elt Ideal .f32) :
    S50000x128.Idx → Elt Ideal .f32 :=
  rectLayer A W (rowOf B)

/-- The printed index maps, decided over the ten points: the feature block and the result block are the same
    block of rows, on the only block of columns; the weights and the bias row are always their only block. -/
theorem maps : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of rows is some point's. -/
theorem maps_onto : ∀ q : Fin 10, ∃ t : Fin cfg0.N, win0_3.index t = ![q.val, 0] :=
  (by decide +kernel : ∀ q : Fin 10, ∃ t : Fin grid0.N, win0_3.index t = ![q.val, 0])

/-- WHAT POINT t WRITES BACK is block t of `G` of the three arrays as the launch finds them. -/
theorem flushed (c : Dev nD) (t : Fin cfg0.N) :
    (dat0 V c).flushed 3 t = ((cfg0.win 3).blk t).view.read (Elt Ideal) (G (V c main_v6) (V c main_v7) (V c main_v8)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S1x128) origin]
  obtain ⟨e0, e1, e2, e3, e4, e5, e6⟩ := maps t
  funext j
  refine (interior0_apply (iblk0 V c 0 t) (iblk0 V c 1 t) (iblk0 V c 2 t) j).trans ?_
  show rectLayer (iblk0 V c 0 t) (iblk0 V c 1 t) (rowOf (iblk0 V c 2 t)) j
    = rectLayer (V c main_v6) (V c main_v7) (rowOf (V c main_v8)) (((cfg0.win 3).blk t).view.emb j)
  have hA : ∀ k : Fin 128, iblk0 V c 0 t (ix2 (j 0) k) = V c main_v6 (ix2 ((((cfg0.win 3).blk t).view.emb j) 0) k) := fun k => by
    show V c main_v6 (((cfg0.win 0).blk t).view.emb (ix2 (j 0) k)) = _
    refine congrArg (V c main_v6) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have hW : ∀ k : Fin 128, iblk0 V c 1 t (ix2 k (j 1)) = V c main_v7 (ix2 k ((((cfg0.win 3).blk t).view.emb j) 1)) := fun k => by
    show V c main_v7 (((cfg0.win 1).blk t).view.emb (ix2 k (j 1))) = _
    refine congrArg (V c main_v7) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hB : rowOf (iblk0 V c 2 t) (ix1 (j 1)) = rowOf (V c main_v8) (ix1 ((((cfg0.win 3).blk t).view.emb j) 1)) := by
    show V c main_v8 (((cfg0.win 2).blk t).view.emb (ix2 0 (j 1))) = V c main_v8 (ix2 0 ((((cfg0.win 3).blk t).view.emb j) 1))
    refine congrArg (V c main_v8) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  unfold rectLayer layer
  refine congrArg (max · zeroWord) (congrArg₂ (· + ·) (Finset.sum_congr rfl fun k _ => ?_) hB)
  exact congrArg₂ (· * ·) (hA k) (hW k)

/-- An index of the result array is in point t's block iff each coordinate is in the block's range. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v9).slice (win0_3.rect t)).set ↔ _
  rw [View.set_slice_whole, Rect.mem_set_unit]
  exact Iff.rfl

/-- The ten blocks cover the result array: row r is in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := maps_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the launch: the rectified dense layer of the three arrays the launch was entered with. -/
theorem array (c : Dev nD) :
    (dat0 V c).arrAt 3 cfg0.N = G (V c main_v6) (V c main_v7) (V c main_v8) :=
  (dat0 V c).arrAt_eq_of_cover 3 _ (fun t _ => flushed V c t) cover

end Cert.KernelIdeal.Region0

end
-- ==== Proof.KRegion1.lean ====
/-
  The second interior kernel's launch, read as a value: its result array after the run.

  The grid has ten points; point t reads rows 5000·t … 5000·t + 4999 of the feature array (all 128 columns), the
  whole 128×128 weight array and the whole 1×128 bias row, and writes back the same rows of the result array.
  What it writes is the rectified dense layer of what it read, and a dense layer's row p depends on row p of
  its left operand only; so block t of the result is block t of ONE function of the three whole arrays, the
  rectified dense layer of the feature array.  The ten blocks tile the 50000 rows, hence the result array IS
  that function.  Stated at any contents `V` the launch may be entered from.
-/
import proofs.«405072_j45311904973172_2_alg».proof.Proof.Gen.KernelIdeal.Frame
import proofs.«405072_j45311904973172_2_alg».proof.Proof.KernelBody
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Dense Cert.LibDenseLayer

variable (V : (c : Dev nD) → (b : Ref sig .tc) → Buf (Elt Ideal) ((c : Thread nD τ).loc b))

theorem origin : (![0, 0] : Fin 2 → Nat) = fun _ => 0 := funext fun a => by fin_cases a <;> rfl

/-- The launch's result as a function of the three arrays it reads: the rectified dense layer. -/
abbrev G (A : S50000x128.Idx → Elt Ideal .f32) (W : S128x128.Idx → Elt Ideal .bf16) (B : S1x128.Idx → Elt Ideal .f32) :
    S50000x128.Idx → Elt Ideal .f32 :=
  rectLayer A W (rowOf B)

/-- The printed index maps, decided over the ten points: the feature block and the result block are the same
    block of rows, on the only block of columns; the weights and the bias row are always their only block. -/
theorem maps : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block of rows is some point's. -/
theorem maps_onto : ∀ q : Fin 10, ∃ t : Fin cfg1.N, win1_3.index t = ![q.val, 0] :=
  (by decide +kernel : ∀ q : Fin 10, ∃ t : Fin grid1.N, win1_3.index t = ![q.val, 0])

/-- WHAT POINT t WRITES BACK is block t of `G` of the three arrays as the launch finds them. -/
theorem flushed (c : Dev nD) (t : Fin cfg1.N) :
    (dat1 V c).flushed 3 t = ((cfg1.win 3).blk t).view.read (Elt Ideal) (G (V c main_v16) (V c main_v17) (V c main_v18)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  obtain ⟨e0, e1, e2, e3, e4, e5, e6⟩ := maps t
  funext j
  refine (interior1_apply (iblk1 V c 0 t) (iblk1 V c 1 t) (iblk1 V c 2 t) j).trans ?_
  show rectLayer (iblk1 V c 0 t) (iblk1 V c 1 t) (rowOf (iblk1 V c 2 t)) j
    = rectLayer (V c main_v16) (V c main_v17) (rowOf (V c main_v18)) (((cfg1.win 3).blk t).view.emb j)
  have hA : ∀ k : Fin 128, iblk1 V c 0 t (ix2 (j 0) k) = V c main_v16 (ix2 ((((cfg1.win 3).blk t).view.emb j) 0) k) := fun k => by
    show V c main_v16 (((cfg1.win 0).blk t).view.emb (ix2 (j 0) k)) = _
    refine congrArg (V c main_v16) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have hW : ∀ k : Fin 128, iblk1 V c 1 t (ix2 k (j 1)) = V c main_v17 (ix2 k ((((cfg1.win 3).blk t).view.emb j) 1)) := fun k => by
    show V c main_v17 (((cfg1.win 1).blk t).view.emb (ix2 k (j 1))) = _
    refine congrArg (V c main_v17) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have hB : rowOf (iblk1 V c 2 t) (ix1 (j 1)) = rowOf (V c main_v18) (ix1 ((((cfg1.win 3).blk t).view.emb j) 1)) := by
    show V c main_v18 (((cfg1.win 2).blk t).view.emb (ix2 0 (j 1))) = V c main_v18 (ix2 0 ((((cfg1.win 3).blk t).view.emb j) 1))
    refine congrArg (V c main_v18) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  unfold rectLayer layer
  refine congrArg (max · zeroWord) (congrArg₂ (· + ·) (Finset.sum_congr rfl fun k _ => ?_) hB)
  exact congrArg₂ (· * ·) (hA k) (hW k)

/-- An index of the result array is in point t's block iff each coordinate is in the block's range. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v19).slice (win1_3.rect t)).set ↔ _
  rw [View.set_slice_whole, Rect.mem_set_unit]
  exact Iff.rfl

/-- The ten blocks cover the result array: row r is in the block of point r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := maps_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY after the launch: the rectified dense layer of the three arrays the launch was entered with. -/
theorem array (c : Dev nD) :
    (dat1 V c).arrAt 3 cfg1.N = G (V c main_v16) (V c main_v17) (V c main_v18) :=
  (dat1 V c).arrAt_eq_of_cover 3 _ (fun t _ => flushed V c t) cover

end Cert.KernelIdeal.Region1

end
-- ==== Proof.KRegion2.lean ====
/-
  The last kernel's launch, read as a value: its result array after the run.

  The grid has ten points; point t reads rows 5000·t … 5000·t + 4999 of the input-feature array and of the
  aggregated-feature array, and whole the three weight arrays and the three bias rows, and writes back the same
  rows of the 50000×40 result array.  What it writes is the last stage of what it read — the output layer of the
  rectified sum of the third layer and the residual layer — and row p of that depends on row p of the two
  feature arrays only; so block t of the result is block t of ONE function of the eight whole arrays, and the
  ten blocks tile the 50000 rows.  Stated at any contents `V` the launch may be entered from.
-/
import proofs.«405072_j45311904973172_2_alg».proof.Proof.Gen.KernelIdeal.Frame
import proofs.«405072_j45311904973172_2_alg».proof.Proof.KernelBody
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Dense Cert.LibDenseLayer

variable (V : (c : Dev nD) → (b : Ref sig .tc) → Buf (Elt Ideal) ((c : Thread nD τ).loc b))

theorem origin : (![0, 0] : Fin 2 → Nat) = fun _ => 0 := funext fun a => by fin_cases a <;> rfl

/-- The launch's result as a function of the eight arrays it reads: the last stage. -/
abbrev G (X A : S50000x128.Idx → Elt Ideal .f32) (Wr : S128x128.Idx → Elt Ideal .bf16) (Br : S1x128.Idx → Elt Ideal .f32)
    (W3 : S128x128.Idx → Elt Ideal .bf16) (B3 : S1x128.Idx → Elt Ideal .f32)
    (Wo : S128x40.Idx → Elt Ideal .bf16) (Bo : S1x40.Idx → Elt Ideal .f32) : S50000x40.Idx → Elt Ideal .f32 :=
  head X A Wr (rowOf Br) W3 (rowOf B3) Wo (rowOf Bo)

/-- The printed index maps, decided over the ten points: the two feature blocks and the result block are the
    same block of rows, on their only block of columns; every weight array and bias row is its only block. -/
theorem maps : ∀ t : Fin cfg2.N, win2_0.index t (0 : Fin 2) = win2_8.index t (0 : Fin 2)
    ∧ win2_1.index t (0 : Fin 2) = win2_8.index t (0 : Fin 2)
    ∧ win2_0.index t (1 : Fin 2) = 0 ∧ win2_1.index t (1 : Fin 2) = 0 ∧ win2_8.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Every block of rows is some point's. -/
theorem maps_onto : ∀ q : Fin 10, ∃ t : Fin cfg2.N, win2_8.index t = ![q.val, 0] :=
  (by decide +kernel : ∀ q : Fin 10, ∃ t : Fin grid2.N, win2_8.index t = ![q.val, 0])

/-- WHAT POINT t WRITES BACK is block t of `G` of the eight arrays as the launch finds them. -/
theorem flushed (c : Dev nD) (t : Fin cfg2.N) :
    (dat2 V c).flushed 8 t = ((cfg2.win 8).blk t).view.read (Elt Ideal)
      (G (V c main_arg0) (V c main_v26) (V c main_v27) (V c main_v30) (V c main_v28) (V c main_v31) (V c main_v29) (V c main_v32)) := by
  show (cfg2.win 8).cut (grid2.coords t) ((dat2 V c).after 8 t) = _
  rw [after2_8]
  unfold out2_8
  rw [View.canon_unit_zero origin]
  simp only [View.ld_unit_zero (S := S5000x128) origin, View.ld_unit_zero (S := S128x128) origin,
    View.ld_unit_zero (S := S1x128) origin, View.ld_unit_zero (S := S128x40) origin, View.ld_unit_zero (S := S1x40) origin]
  obtain ⟨e0, e1, e2, e3, e4, e5, e6, e7, e8, e9, e10, e11, e12, e13, e14, e15, e16⟩ := maps t
  funext j
  refine (last_apply (iblk2 V c 0 t) (iblk2 V c 1 t) (iblk2 V c 2 t) (iblk2 V c 3 t) (iblk2 V c 4 t) (iblk2 V c 5 t)
    (iblk2 V c 6 t) (iblk2 V c 7 t) j).trans ?_
  have hX : ∀ k : Fin 128, iblk2 V c 0 t (ix2 (j 0) k) = V c main_arg0 (ix2 ((((cfg2.win 8).blk t).view.emb j) 0) k) := fun k => by
    show V c main_arg0 (((cfg2.win 0).blk t).view.emb (ix2 (j 0) k)) = _
    refine congrArg (V c main_arg0) (funext fun a => Fin.ext ?_)
    match a with
    | ⟨0, _⟩ => show win2_0.index t (0 : Fin 2) * 5000 + 1 * (j 0).val = win2_8.index t (0 : Fin 2) * 5000 + 1 * (j 0).val; omega
    | ⟨1, _⟩ => show win2_0.index t (1 : Fin 2) * 128 + 1 * k.val = k.val; omega
  have hA : ∀ k : Fin 128, iblk2 V c 1 t (ix2 (j 0) k) = V c main_v26 (ix2 ((((cfg2.win 8).blk t).view.emb j) 0) k) := fun k => by
    show V c main_v26 (((cfg2.win 1).blk t).view.emb (ix2 (j 0) k)) = _
    refine congrArg (V c main_v26) (funext fun a => Fin.ext ?_)
    match a with
    | ⟨0, _⟩ => show win2_1.index t (0 : Fin 2) * 5000 + 1 * (j 0).val = win2_8.index t (0 : Fin 2) * 5000 + 1 * (j 0).val; omega
    | ⟨1, _⟩ => show win2_1.index t (1 : Fin 2) * 128 + 1 * k.val = k.val; omega
  have hWr : iblk2 V c 2 t = V c main_v27 := funext fun y => by
    show V c main_v27 (((cfg2.win 2).blk t).view.emb y) = V c main_v27 y
    refine congrArg (V c main_v27) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hBr : iblk2 V c 3 t = V c main_v30 := funext fun y => by
    show V c main_v30 (((cfg2.win 3).blk t).view.emb y) = V c main_v30 y
    refine congrArg (V c main_v30) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have hW3 : iblk2 V c 4 t = V c main_v28 := funext fun y => by
    show V c main_v28 (((cfg2.win 4).blk t).view.emb y) = V c main_v28 y
    refine congrArg (V c main_v28) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hB3 : iblk2 V c 5 t = V c main_v31 := funext fun y => by
    show V c main_v31 (((cfg2.win 5).blk t).view.emb y) = V c main_v31 y
    refine congrArg (V c main_v31) (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  have hWo : iblk2 V c 6 t = V c main_v29 := funext fun y => by
    show V c main_v29 (((cfg2.win 6).blk t).view.emb y) = V c main_v29 y
    refine congrArg (V c main_v29) (funext fun a => Fin.ext ?_)
    match a with
    | ⟨0, _⟩ => show win2_6.index t (0 : Fin 2) * 128 + 1 * (y 0).val = (y 0).val; omega
    | ⟨1, _⟩ => show win2_6.index t (1 : Fin 2) * 40 + 1 * (y 1).val = (y 1).val; omega
  have hBo : iblk2 V c 7 t = V c main_v32 := funext fun y => by
    show V c main_v32 (((cfg2.win 7).blk t).view.emb y) = V c main_v32 y
    refine congrArg (V c main_v32) (funext fun a => Fin.ext ?_)
    match a with
    | ⟨0, _⟩ => show win2_7.index t (0 : Fin 2) * 1 + 1 * (y 0).val = (y 0).val; omega
    | ⟨1, _⟩ => show win2_7.index t (1 : Fin 2) * 40 + 1 * (y 1).val = (y 1).val; omega
  have hc : (j 1).val = ((((cfg2.win 8).blk t).view.emb j) 1).val := by
    show (j 1).val = win2_8.index t (1 : Fin 2) * 40 + 1 * (j 1).val; omega
  exact head_congr (M := 5000) (M' := 50000) (K := 128) (N := 128) (C := 40)
    (iblk2 V c 0 t) (iblk2 V c 1 t) (V c main_arg0) (V c main_v26)
    (iblk2 V c 2 t) (V c main_v27) (iblk2 V c 4 t) (V c main_v28)
    (rowOf (iblk2 V c 3 t)) (rowOf (V c main_v30)) (rowOf (iblk2 V c 5 t)) (rowOf (V c main_v31))
    (iblk2 V c 6 t) (V c main_v29) (rowOf (iblk2 V c 7 t)) (rowOf (V c main_v32))
    j (((cfg2.win 8).blk t).view.emb j) hX hA hWr (congrArg rowOf hBr) hW3 (congrArg rowOf hB3) hWo (congrArg rowOf hBo) hc

/-- An index of the result array is in point t's block iff each coordinate is in the block's range. -/
theorem mem_blk (t : Fin cfg2.N) (i : S50000x40.Idx) :
    i ∈ ((cfg2.win 8).blk t).view.set ↔ ∀ a : Fin 2, win2_8.index t a * S5000x40.size a ≤ (i a).val
      ∧ (i a).val < win2_8.index t a * S5000x40.size a + S5000x40.size a := by
  show i ∈ ((View.whole main_v33).slice (win2_8.rect t)).set ↔ _
  rw [View.set_slice_whole, Rect.mem_set_unit]
  exact Iff.rfl

/-- The ten blocks cover the result array: row r is in the block of point r / 5000. -/
theorem cover (i : S50000x40.Idx) :
    ∃ t : Fin cfg2.N, (cfg2.win 8).flush t = true ∧ i ∈ ((cfg2.win 8).blk t).view.set := by
  have hi0 : (i 0).val < 50000 := (i 0).isLt
  have hi1 : (i 1).val < 40 := (i 1).isLt
  obtain ⟨t, ht⟩ := maps_onto ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 40 ≤ (i 1).val ∧ (i 1).val < win2_8.index t (1 : Fin 2) * 40 + 40; omega

/-- THE RESULT ARRAY after the launch: the last stage of the eight arrays the launch was entered with. -/
theorem array (c : Dev nD) :
    (dat2 V c).arrAt 8 cfg2.N
      = G (V c main_arg0) (V c main_v26) (V c main_v27) (V c main_v30) (V c main_v28) (V c main_v31) (V c main_v29) (V c main_v32) :=
  (dat2 V c).arrAt_eq_of_cover 8 _ (fun t _ => flushed V c t) cover

end Cert.KernelIdeal.Region2

end
-- ==== Proof.KernelHost.lean ====
/-
  The host side of the kernel program, read as values.

  Between its three launches the program runs the same short stretch of host operations three times: gather the
  rows of a feature array that the source indices name, scale row e by the edge weight e, and sum the scaled rows
  into the destination indices' rows of a zero array.  That stretch is ONE function `agg` of the feature array,
  the two index arrays and the weights, and it is carried unopened.  Beside it a stretch narrows a weight array
  and reshapes a bias vector to a row.  No host operation and no launch writes an argument array, so read at any
  segment boundary an argument holds what the program was launched with.  From these, what each launch is entered
  with: the first with `agg` of the input features, the second with `agg` of the first launch's result array,
  the third with the input features and `agg` of the second launch's result array.
-/
import proofs.«405072_j45311904973172_2_alg».proof.Proof.Gen.KernelIdeal.Frame
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-- One round of message passing as the host computes it: row e of the gathered features, times weight e, summed
    into row dst e of a zero array. -/
def agg (x : FVec F S50000x128 .f32) (src dst : IVec S640000 32) (ew : FVec F S640000 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (Host.gather gather_S50000x128_S640000x1_S640000x128_1_0_n_n_0_1_1128 x
        (broadcastInDim S640000x1 ![0] bcast_S640000_S640000x1_0 src))
      (broadcastInDim S640000x128 ![0, 1] bcast_S640000x1_S640000x128_0_1
        (broadcastInDim S640000x1 ![0] bcast_S640000_S640000x1_0 ew)))

variable (m : (ℓ : Loc nD τ sig) → Buf (Elt F) ℓ) (ρ : Dev nD → PrngReg)

/-! ## An argument array at a segment boundary holds its launch contents -/

theorem W2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results
theorem W3_arg0 (c : Dev nD) : W3 m ρ c (Proc.devRef .tc main_arg0) = m ((c : Thread nD τ).loc main_arg0) :=
  (W3_of_ne m ρ c main_arg0 (by decide)).trans (W2_arg0 m ρ c)
theorem W2_arg1 (c : Dev nD) : W2 m ρ c (Proc.devRef .tc main_arg1) = m ((c : Thread nD τ).loc main_arg1) := by
  show StableHlo.after hostOps0_1 (StableHlo.after hostOps0 (W0 m ρ c)) (Proc.devRef .tc main_arg1) = _
  after_results
theorem W3_arg1 (c : Dev nD) : W3 m ρ c (Proc.devRef .tc main_arg1) = m ((c : Thread nD τ).loc main_arg1) :=
  (W3_of_ne m ρ c main_arg1 (by decide)).trans (W2_arg1 m ρ c)
theorem W2_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results
theorem W3_arg2 (c : Dev nD) : W3 m ρ c (Proc.devRef .tc main_arg2) = m ((c : Thread nD τ).loc main_arg2) :=
  (W3_of_ne m ρ c main_arg2 (by decide)).trans (W2_arg2 m ρ c)
theorem W2_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results
theorem W3_arg3 (c : Dev nD) : W3 m ρ c (Proc.devRef .tc main_arg3) = m ((c : Thread nD τ).loc main_arg3) :=
  (W3_of_ne m ρ c main_arg3 (by decide)).trans (W2_arg3 m ρ c)
theorem W2_arg4 (c : Dev nD) : W2 m ρ c (Proc.devRef .tc main_arg4) = m ((c : Thread nD τ).loc main_arg4) := by
  show StableHlo.after hostOps0_1 (StableHlo.after hostOps0 (W0 m ρ c)) (Proc.devRef .tc main_arg4) = _
  after_results
theorem W3_arg4 (c : Dev nD) : W3 m ρ c (Proc.devRef .tc main_arg4) = m ((c : Thread nD τ).loc main_arg4) :=
  (W3_of_ne m ρ c main_arg4 (by decide)).trans (W2_arg4 m ρ c)
theorem W2_arg5 (c : Dev nD) : W2 m ρ c (Proc.devRef .tc main_arg5) = m ((c : Thread nD τ).loc main_arg5) := by
  show StableHlo.after hostOps0_1 (StableHlo.after hostOps0 (W0 m ρ c)) (Proc.devRef .tc main_arg5) = _
  after_results
theorem W3_arg5 (c : Dev nD) : W3 m ρ c (Proc.devRef .tc main_arg5) = m ((c : Thread nD τ).loc main_arg5) :=
  (W3_of_ne m ρ c main_arg5 (by decide)).trans (W2_arg5 m ρ c)
theorem W2_arg8 (c : Dev nD) : W2 m ρ c (Proc.devRef .tc main_arg8) = m ((c : Thread nD τ).loc main_arg8) := by
  show StableHlo.after hostOps0_1 (StableHlo.after hostOps0 (W0 m ρ c)) (Proc.devRef .tc main_arg8) = _
  after_results
theorem W3_arg8 (c : Dev nD) : W3 m ρ c (Proc.devRef .tc main_arg8) = m ((c : Thread nD τ).loc main_arg8) :=
  (W3_of_ne m ρ c main_arg8 (by decide)).trans (W2_arg8 m ρ c)
theorem W2_arg9 (c : Dev nD) : W2 m ρ c (Proc.devRef .tc main_arg9) = m ((c : Thread nD τ).loc main_arg9) := by
  show StableHlo.after hostOps0_1 (StableHlo.after hostOps0 (W0 m ρ c)) (Proc.devRef .tc main_arg9) = _
  after_results
theorem W3_arg9 (c : Dev nD) : W3 m ρ c (Proc.devRef .tc main_arg9) = m ((c : Thread nD τ).loc main_arg9) :=
  (W3_of_ne m ρ c main_arg9 (by decide)).trans (W2_arg9 m ρ c)
theorem W2_arg10 (c : Dev nD) : W2 m ρ c (Proc.devRef .tc main_arg10) = m ((c : Thread nD τ).loc main_arg10) := by
  show StableHlo.after hostOps0_1 (StableHlo.after hostOps0 (W0 m ρ c)) (Proc.devRef .tc main_arg10) = _
  after_results
theorem W3_arg10 (c : Dev nD) : W3 m ρ c (Proc.devRef .tc main_arg10) = m ((c : Thread nD τ).loc main_arg10) :=
  (W3_of_ne m ρ c main_arg10 (by decide)).trans (W2_arg10 m ρ c)
theorem W2_arg11 (c : Dev nD) : W2 m ρ c (Proc.devRef .tc main_arg11) = m ((c : Thread nD τ).loc main_arg11) := by
  show StableHlo.after hostOps0_1 (StableHlo.after hostOps0 (W0 m ρ c)) (Proc.devRef .tc main_arg11) = _
  after_results
theorem W3_arg11 (c : Dev nD) : W3 m ρ c (Proc.devRef .tc main_arg11) = m ((c : Thread nD τ).loc main_arg11) :=
  (W3_of_ne m ρ c main_arg11 (by decide)).trans (W2_arg11 m ρ c)
theorem W2_arg12 (c : Dev nD) : W2 m ρ c (Proc.devRef .tc main_arg12) = m ((c : Thread nD τ).loc main_arg12) := by
  show StableHlo.after hostOps0_1 (StableHlo.after hostOps0 (W0 m ρ c)) (Proc.devRef .tc main_arg12) = _
  after_results
theorem W3_arg12 (c : Dev nD) : W3 m ρ c (Proc.devRef .tc main_arg12) = m ((c : Thread nD τ).loc main_arg12) :=
  (W3_of_ne m ρ c main_arg12 (by decide)).trans (W2_arg12 m ρ c)
theorem W2_arg13 (c : Dev nD) : W2 m ρ c (Proc.devRef .tc main_arg13) = m ((c : Thread nD τ).loc main_arg13) := by
  show StableHlo.after hostOps0_1 (StableHlo.after hostOps0 (W0 m ρ c)) (Proc.devRef .tc main_arg13) = _
  after_results
theorem W3_arg13 (c : Dev nD) : W3 m ρ c (Proc.devRef .tc main_arg13) = m ((c : Thread nD τ).loc main_arg13) :=
  (W3_of_ne m ρ c main_arg13 (by decide)).trans (W2_arg13 m ρ c)

theorem W5_arg0 (c : Dev nD) : W5 m ρ c (Proc.devRef .tc main_arg0) = m ((c : Thread nD τ).loc main_arg0) := by
  refine Eq.trans ?_ (W3_arg0 m ρ c)
  show StableHlo.after hostOps1_1 (StableHlo.after hostOps1 (W3 m ρ c)) (Proc.devRef .tc main_arg0) = _
  after_results
theorem W6_arg0 (c : Dev nD) : W6 m ρ c (Proc.devRef .tc main_arg0) = m ((c : Thread nD τ).loc main_arg0) :=
  (W6_of_ne m ρ c main_arg0 (by decide)).trans (W5_arg0 m ρ c)
theorem W5_arg1 (c : Dev nD) : W5 m ρ c (Proc.devRef .tc main_arg1) = m ((c : Thread nD τ).loc main_arg1) := by
  refine Eq.trans ?_ (W3_arg1 m ρ c)
  show StableHlo.after hostOps1_1 (StableHlo.after hostOps1 (W3 m ρ c)) (Proc.devRef .tc main_arg1) = _
  after_results
theorem W6_arg1 (c : Dev nD) : W6 m ρ c (Proc.devRef .tc main_arg1) = m ((c : Thread nD τ).loc main_arg1) :=
  (W6_of_ne m ρ c main_arg1 (by decide)).trans (W5_arg1 m ρ c)
theorem W5_arg2 (c : Dev nD) : W5 m ρ c (Proc.devRef .tc main_arg2) = m ((c : Thread nD τ).loc main_arg2) := by
  refine Eq.trans ?_ (W3_arg2 m ρ c)
  show StableHlo.after hostOps1_1 (StableHlo.after hostOps1 (W3 m ρ c)) (Proc.devRef .tc main_arg2) = _
  after_results
theorem W6_arg2 (c : Dev nD) : W6 m ρ c (Proc.devRef .tc main_arg2) = m ((c : Thread nD τ).loc main_arg2) :=
  (W6_of_ne m ρ c main_arg2 (by decide)).trans (W5_arg2 m ρ c)
theorem W5_arg3 (c : Dev nD) : W5 m ρ c (Proc.devRef .tc main_arg3) = m ((c : Thread nD τ).loc main_arg3) := by
  refine Eq.trans ?_ (W3_arg3 m ρ c)
  show StableHlo.after hostOps1_1 (StableHlo.after hostOps1 (W3 m ρ c)) (Proc.devRef .tc main_arg3) = _
  after_results
theorem W6_arg3 (c : Dev nD) : W6 m ρ c (Proc.devRef .tc main_arg3) = m ((c : Thread nD τ).loc main_arg3) :=
  (W6_of_ne m ρ c main_arg3 (by decide)).trans (W5_arg3 m ρ c)
theorem W5_arg4 (c : Dev nD) : W5 m ρ c (Proc.devRef .tc main_arg4) = m ((c : Thread nD τ).loc main_arg4) := by
  refine Eq.trans ?_ (W3_arg4 m ρ c)
  show StableHlo.after hostOps1_1 (StableHlo.after hostOps1 (W3 m ρ c)) (Proc.devRef .tc main_arg4) = _
  after_results
theorem W6_arg4 (c : Dev nD) : W6 m ρ c (Proc.devRef .tc main_arg4) = m ((c : Thread nD τ).loc main_arg4) :=
  (W6_of_ne m ρ c main_arg4 (by decide)).trans (W5_arg4 m ρ c)
theorem W5_arg5 (c : Dev nD) : W5 m ρ c (Proc.devRef .tc main_arg5) = m ((c : Thread nD τ).loc main_arg5) := by
  refine Eq.trans ?_ (W3_arg5 m ρ c)
  show StableHlo.after hostOps1_1 (StableHlo.after hostOps1 (W3 m ρ c)) (Proc.devRef .tc main_arg5) = _
  after_results
theorem W6_arg5 (c : Dev nD) : W6 m ρ c (Proc.devRef .tc main_arg5) = m ((c : Thread nD τ).loc main_arg5) :=
  (W6_of_ne m ρ c main_arg5 (by decide)).trans (W5_arg5 m ρ c)
theorem W5_arg8 (c : Dev nD) : W5 m ρ c (Proc.devRef .tc main_arg8) = m ((c : Thread nD τ).loc main_arg8) := by
  refine Eq.trans ?_ (W3_arg8 m ρ c)
  show StableHlo.after hostOps1_1 (StableHlo.after hostOps1 (W3 m ρ c)) (Proc.devRef .tc main_arg8) = _
  after_results
theorem W6_arg8 (c : Dev nD) : W6 m ρ c (Proc.devRef .tc main_arg8) = m ((c : Thread nD τ).loc main_arg8) :=
  (W6_of_ne m ρ c main_arg8 (by decide)).trans (W5_arg8 m ρ c)
theorem W5_arg9 (c : Dev nD) : W5 m ρ c (Proc.devRef .tc main_arg9) = m ((c : Thread nD τ).loc main_arg9) := by
  refine Eq.trans ?_ (W3_arg9 m ρ c)
  show StableHlo.after hostOps1_1 (StableHlo.after hostOps1 (W3 m ρ c)) (Proc.devRef .tc main_arg9) = _
  after_results
theorem W6_arg9 (c : Dev nD) : W6 m ρ c (Proc.devRef .tc main_arg9) = m ((c : Thread nD τ).loc main_arg9) :=
  (W6_of_ne m ρ c main_arg9 (by decide)).trans (W5_arg9 m ρ c)
theorem W5_arg10 (c : Dev nD) : W5 m ρ c (Proc.devRef .tc main_arg10) = m ((c : Thread nD τ).loc main_arg10) := by
  refine Eq.trans ?_ (W3_arg10 m ρ c)
  show StableHlo.after hostOps1_1 (StableHlo.after hostOps1 (W3 m ρ c)) (Proc.devRef .tc main_arg10) = _
  after_results
theorem W6_arg10 (c : Dev nD) : W6 m ρ c (Proc.devRef .tc main_arg10) = m ((c : Thread nD τ).loc main_arg10) :=
  (W6_of_ne m ρ c main_arg10 (by decide)).trans (W5_arg10 m ρ c)
theorem W5_arg11 (c : Dev nD) : W5 m ρ c (Proc.devRef .tc main_arg11) = m ((c : Thread nD τ).loc main_arg11) := by
  refine Eq.trans ?_ (W3_arg11 m ρ c)
  show StableHlo.after hostOps1_1 (StableHlo.after hostOps1 (W3 m ρ c)) (Proc.devRef .tc main_arg11) = _
  after_results
theorem W6_arg11 (c : Dev nD) : W6 m ρ c (Proc.devRef .tc main_arg11) = m ((c : Thread nD τ).loc main_arg11) :=
  (W6_of_ne m ρ c main_arg11 (by decide)).trans (W5_arg11 m ρ c)
theorem W5_arg12 (c : Dev nD) : W5 m ρ c (Proc.devRef .tc main_arg12) = m ((c : Thread nD τ).loc main_arg12) := by
  refine Eq.trans ?_ (W3_arg12 m ρ c)
  show StableHlo.after hostOps1_1 (StableHlo.after hostOps1 (W3 m ρ c)) (Proc.devRef .tc main_arg12) = _
  after_results
theorem W6_arg12 (c : Dev nD) : W6 m ρ c (Proc.devRef .tc main_arg12) = m ((c : Thread nD τ).loc main_arg12) :=
  (W6_of_ne m ρ c main_arg12 (by decide)).trans (W5_arg12 m ρ c)
theorem W5_arg13 (c : Dev nD) : W5 m ρ c (Proc.devRef .tc main_arg13) = m ((c : Thread nD τ).loc main_arg13) := by
  refine Eq.trans ?_ (W3_arg13 m ρ c)
  show StableHlo.after hostOps1_1 (StableHlo.after hostOps1 (W3 m ρ c)) (Proc.devRef .tc main_arg13) = _
  after_results
theorem W6_arg13 (c : Dev nD) : W6 m ρ c (Proc.devRef .tc main_arg13) = m ((c : Thread nD τ).loc main_arg13) :=
  (W6_of_ne m ρ c main_arg13 (by decide)).trans (W5_arg13 m ρ c)

theorem W8_arg0 (c : Dev nD) : W8 m ρ c (Proc.devRef .tc main_arg0) = m ((c : Thread nD τ).loc main_arg0) := by
  refine Eq.trans ?_ (W6_arg0 m ρ c)
  show StableHlo.after hostOps2_1 (StableHlo.after hostOps2 (W6 m ρ c)) (Proc.devRef .tc main_arg0) = _
  after_results
theorem W8_arg1 (c : Dev nD) : W8 m ρ c (Proc.devRef .tc main_arg1) = m ((c : Thread nD τ).loc main_arg1) := by
  refine Eq.trans ?_ (W6_arg1 m ρ c)
  show StableHlo.after hostOps2_1 (StableHlo.after hostOps2 (W6 m ρ c)) (Proc.devRef .tc main_arg1) = _
  after_results
theorem W8_arg2 (c : Dev nD) : W8 m ρ c (Proc.devRef .tc main_arg2) = m ((c : Thread nD τ).loc main_arg2) := by
  refine Eq.trans ?_ (W6_arg2 m ρ c)
  show StableHlo.after hostOps2_1 (StableHlo.after hostOps2 (W6 m ρ c)) (Proc.devRef .tc main_arg2) = _
  after_results
theorem W8_arg3 (c : Dev nD) : W8 m ρ c (Proc.devRef .tc main_arg3) = m ((c : Thread nD τ).loc main_arg3) := by
  refine Eq.trans ?_ (W6_arg3 m ρ c)
  show StableHlo.after hostOps2_1 (StableHlo.after hostOps2 (W6 m ρ c)) (Proc.devRef .tc main_arg3) = _
  after_results
theorem W8_arg4 (c : Dev nD) : W8 m ρ c (Proc.devRef .tc main_arg4) = m ((c : Thread nD τ).loc main_arg4) := by
  refine Eq.trans ?_ (W6_arg4 m ρ c)
  show StableHlo.after hostOps2_1 (StableHlo.after hostOps2 (W6 m ρ c)) (Proc.devRef .tc main_arg4) = _
  after_results
theorem W8_arg5 (c : Dev nD) : W8 m ρ c (Proc.devRef .tc main_arg5) = m ((c : Thread nD τ).loc main_arg5) := by
  refine Eq.trans ?_ (W6_arg5 m ρ c)
  show StableHlo.after hostOps2_1 (StableHlo.after hostOps2 (W6 m ρ c)) (Proc.devRef .tc main_arg5) = _
  after_results
theorem W8_arg10 (c : Dev nD) : W8 m ρ c (Proc.devRef .tc main_arg10) = m ((c : Thread nD τ).loc main_arg10) := by
  refine Eq.trans ?_ (W6_arg10 m ρ c)
  show StableHlo.after hostOps2_1 (StableHlo.after hostOps2 (W6 m ρ c)) (Proc.devRef .tc main_arg10) = _
  after_results
theorem W8_arg11 (c : Dev nD) : W8 m ρ c (Proc.devRef .tc main_arg11) = m ((c : Thread nD τ).loc main_arg11) := by
  refine Eq.trans ?_ (W6_arg11 m ρ c)
  show StableHlo.after hostOps2_1 (StableHlo.after hostOps2 (W6 m ρ c)) (Proc.devRef .tc main_arg11) = _
  after_results
theorem W8_arg12 (c : Dev nD) : W8 m ρ c (Proc.devRef .tc main_arg12) = m ((c : Thread nD τ).loc main_arg12) := by
  refine Eq.trans ?_ (W6_arg12 m ρ c)
  show StableHlo.after hostOps2_1 (StableHlo.after hostOps2 (W6 m ρ c)) (Proc.devRef .tc main_arg12) = _
  after_results
theorem W8_arg13 (c : Dev nD) : W8 m ρ c (Proc.devRef .tc main_arg13) = m ((c : Thread nD τ).loc main_arg13) := by
  refine Eq.trans ?_ (W6_arg13 m ρ c)
  show StableHlo.after hostOps2_1 (StableHlo.after hostOps2 (W6 m ρ c)) (Proc.devRef .tc main_arg13) = _
  after_results

/-! ## What the first launch is entered with -/

theorem entry0_feat (c : Dev nD) : V2 m ρ c main_v6
    = agg (m ((c : Thread nD τ).loc main_arg0)) (m ((c : Thread nD τ).loc main_arg1)) (m ((c : Thread nD τ).loc main_arg2))
        (m ((c : Thread nD τ).loc main_arg3)) := by
  show StableHlo.after hostOps0_1 (StableHlo.after hostOps0 (W0 m ρ c)) (Proc.devRef .tc main_v6) = _
  after_results
  rfl

theorem entry0_weights (c : Dev nD) : V2 m ρ c main_v7 = truncf .bf16 (m ((c : Thread nD τ).loc main_arg6)) bitsLt_bf16_f32 := by
  show StableHlo.after hostOps0_1 (StableHlo.after hostOps0 (W0 m ρ c)) (Proc.devRef .tc main_v7) = _
  after_results

theorem entry0_bias (c : Dev nD) : V2 m ρ c main_v8 = shapeCast S1x128 (m ((c : Thread nD τ).loc main_arg7)) shapeCasts_S128_S1x128 := by
  show StableHlo.after hostOps0_1 (StableHlo.after hostOps0 (W0 m ρ c)) (Proc.devRef .tc main_v8) = _
  after_results
  rfl

/-! ## What the second launch is entered with -/

theorem entry1_feat (c : Dev nD) : V5 m ρ c main_v16
    = agg (V3 m ρ c main_v9) (m ((c : Thread nD τ).loc main_arg1)) (m ((c : Thread nD τ).loc main_arg2))
        (m ((c : Thread nD τ).loc main_arg3)) := by
  have h : V5 m ρ c main_v16 = agg (W3 m ρ c (Proc.devRef .tc main_v9)) (W3 m ρ c (Proc.devRef .tc main_arg1))
      (W3 m ρ c (Proc.devRef .tc main_arg2)) (W3 m ρ c (Proc.devRef .tc main_arg3)) := by
    show StableHlo.after hostOps1_1 (StableHlo.after hostOps1 (W3 m ρ c)) (Proc.devRef .tc main_v16) = _
    after_results
    rfl
  rw [h, W3_arg1, W3_arg2, W3_arg3]

theorem entry1_weights (c : Dev nD) : V5 m ρ c main_v17 = truncf .bf16 (m ((c : Thread nD τ).loc main_arg8)) bitsLt_bf16_f32 := by
  have h : V5 m ρ c main_v17 = truncf .bf16 (W3 m ρ c (Proc.devRef .tc main_arg8)) bitsLt_bf16_f32 := by
    show StableHlo.after hostOps1_1 (StableHlo.after hostOps1 (W3 m ρ c)) (Proc.devRef .tc main_v17) = _
    after_results
  rw [h, W3_arg8]

theorem entry1_bias (c : Dev nD) : V5 m ρ c main_v18 = shapeCast S1x128 (m ((c : Thread nD τ).loc main_arg9)) shapeCasts_S128_S1x128 := by
  have h : V5 m ρ c main_v18 = shapeCast S1x128 (W3 m ρ c (Proc.devRef .tc main_arg9)) shapeCasts_S128_S1x128 := by
    show StableHlo.after hostOps1_1 (StableHlo.after hostOps1 (W3 m ρ c)) (Proc.devRef .tc main_v18) = _
    after_results
    rfl
  rw [h, W3_arg9]

/-! ## What the third launch is entered with -/

theorem entry2_input (c : Dev nD) : V8 m ρ c main_arg0 = m ((c : Thread nD τ).loc main_arg0) := W8_arg0 m ρ c

theorem entry2_feat (c : Dev nD) : V8 m ρ c main_v26
    = agg (V6 m ρ c main_v19) (m ((c : Thread nD τ).loc main_arg1)) (m ((c : Thread nD τ).loc main_arg2))
        (m ((c : Thread nD τ).loc main_arg3)) := by
  have h : V8 m ρ c main_v26 = agg (W6 m ρ c (Proc.devRef .tc main_v19)) (W6 m ρ c (Proc.devRef .tc main_arg1))
      (W6 m ρ c (Proc.devRef .tc main_arg2)) (W6 m ρ c (Proc.devRef .tc main_arg3)) := by
    show StableHlo.after hostOps2_1 (StableHlo.after hostOps2 (W6 m ρ c)) (Proc.devRef .tc main_v26) = _
    after_results
    rfl
  rw [h, W6_arg1, W6_arg2, W6_arg3]

theorem entry2_resWeights (c : Dev nD) : V8 m ρ c main_v27 = truncf .bf16 (m ((c : Thread nD τ).loc main_arg4)) bitsLt_bf16_f32 := by
  have h : V8 m ρ c main_v27 = truncf .bf16 (W6 m ρ c (Proc.devRef .tc main_arg4)) bitsLt_bf16_f32 := by
    show StableHlo.after hostOps2_1 (StableHlo.after hostOps2 (W6 m ρ c)) (Proc.devRef .tc main_v27) = _
    after_results
  rw [h, W6_arg4]

theorem entry2_thirdWeights (c : Dev nD) : V8 m ρ c main_v28 = truncf .bf16 (m ((c : Thread nD τ).loc main_arg10)) bitsLt_bf16_f32 := by
  have h : V8 m ρ c main_v28 = truncf .bf16 (W6 m ρ c (Proc.devRef .tc main_arg10)) bitsLt_bf16_f32 := by
    show StableHlo.after hostOps2_1 (StableHlo.after hostOps2 (W6 m ρ c)) (Proc.devRef .tc main_v28) = _
    after_results
  rw [h, W6_arg10]

theorem entry2_outWeights (c : Dev nD) : V8 m ρ c main_v29 = truncf .bf16 (m ((c : Thread nD τ).loc main_arg12)) bitsLt_bf16_f32 := by
  have h : V8 m ρ c main_v29 = truncf .bf16 (W6 m ρ c (Proc.devRef .tc main_arg12)) bitsLt_bf16_f32 := by
    show StableHlo.after hostOps2_1 (StableHlo.after hostOps2 (W6 m ρ c)) (Proc.devRef .tc main_v29) = _
    after_results
  rw [h, W6_arg12]

theorem entry2_resBias (c : Dev nD) : V8 m ρ c main_v30 = shapeCast S1x128 (m ((c : Thread nD τ).loc main_arg5)) shapeCasts_S128_S1x128 := by
  have h : V8 m ρ c main_v30 = shapeCast S1x128 (W6 m ρ c (Proc.devRef .tc main_arg5)) shapeCasts_S128_S1x128 := by
    show StableHlo.after hostOps2_1 (StableHlo.after hostOps2 (W6 m ρ c)) (Proc.devRef .tc main_v30) = _
    after_results
    rfl
  rw [h, W6_arg5]

theorem entry2_thirdBias (c : Dev nD) : V8 m ρ c main_v31 = shapeCast S1x128 (m ((c : Thread nD τ).loc main_arg11)) shapeCasts_S128_S1x128 := by
  have h : V8 m ρ c main_v31 = shapeCast S1x128 (W6 m ρ c (Proc.devRef .tc main_arg11)) shapeCasts_S128_S1x128 := by
    show StableHlo.after hostOps2_1 (StableHlo.after hostOps2 (W6 m ρ c)) (Proc.devRef .tc main_v31) = _
    after_results
    rfl
  rw [h, W6_arg11]

theorem entry2_outBias (c : Dev nD) : V8 m ρ c main_v32 = shapeCast S1x40 (m ((c : Thread nD τ).loc main_arg13)) shapeCasts_S40_S1x40 := by
  have h : V8 m ρ c main_v32 = shapeCast S1x40 (W6 m ρ c (Proc.devRef .tc main_arg13)) shapeCasts_S40_S1x40 := by
    show StableHlo.after hostOps2_1 (StableHlo.after hostOps2 (W6 m ρ c)) (Proc.devRef .tc main_v32) = _
    after_results
    rfl
  rw [h, W6_arg13]

end Cert.KernelIdeal.HostSide

end
-- ==== Proof.KernelValue.lean ====
/-
  The kernel program's result as one function of its argument arrays, over the extended reals.

  The run ends with the result buffer at the last launch's result array.  That array is the last stage of the
  arrays the third launch was entered with: the input features and the third aggregate, the narrowed weights and
  the reshaped biases.  The third aggregate is the round `agg` of the second launch's result array, which is the
  rectified layer of what the second launch was entered with, the second aggregate; and so on down to the input
  features.  Narrowing is the identity over the extended reals, and a bias vector reshaped to a row, read as a
  row, is the vector.  So the result is

      head x agg₃ Wr br W3 b3 Wo bo,   agg₁ = agg x,   agg_{i+1} = agg (rectLayer agg_i W_i b_i).
-/
import proofs.«405072_j45311904973172_2_alg».proof.Proof.KernelRun
import proofs.«405072_j45311904973172_2_alg».proof.Proof.KRegion0
import proofs.«405072_j45311904973172_2_alg».proof.Proof.KRegion1
import proofs.«405072_j45311904973172_2_alg».proof.Proof.KRegion2
import proofs.«405072_j45311904973172_2_alg».proof.Proof.KernelHost

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.HostSide Cert.Dense Cert.LibDenseLayer

/-- A vector reshaped to a one-row array, read as a row, is the vector. -/
theorem rowOf_reshape {N : Nat} (b : (⟨1, ![N]⟩ : Shape).Idx → EReal)
    (h : (⟨1, ![N]⟩ : Shape).ShapeCasts ⟨2, ![1, N]⟩) : rowOf (shapeCast ⟨2, ![1, N]⟩ b h) = b := by
  funext q
  refine (shapeCast_addUnit_apply ![N] b h (ix2 0 (q 0))).trans (congrArg b (funext fun a => ?_))
  match a with
  | ⟨0, _⟩ => rfl

/-- The kernel program's result, over the round `agg` and the specification's layers. -/
def out (x : FVec Ideal S50000x128 .f32) (src dst : IVec S640000 32) (ew : FVec Ideal S640000 .f32)
    (Wr : FVec Ideal S128x128 .f32) (br : FVec Ideal S128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (Wo : FVec Ideal S128x40 .f32) (bo : FVec Ideal S40 .f32) : FVec Ideal S50000x40 .f32 :=
  head x (agg (rectLayer (agg (rectLayer (agg x src dst ew) W1 b1) src dst ew) W2 b2) src dst ew) Wr br W3 b3 Wo bo

variable (m : (ℓ : Loc nD τ sig) → Buf (Elt Ideal) ℓ) (ρ : Dev nD → PrngReg)

/-- THE RESULT BUFFER at the last segment boundary is `out` of the launch contents of the fourteen arguments. -/
theorem result (c : Dev nD) : W9 m ρ c (Proc.devRef .tc main_v33) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h9 : W9 m ρ c (Proc.devRef .tc main_v33) = (dat2 (V8 m ρ) c).arrAt 8 cfg2.N := W9_arr m ρ c 8
  have h6 : V6 m ρ c main_v19 = (dat1 (V5 m ρ) c).arrAt 3 cfg1.N := W6_arr m ρ c 3
  have h3 : V3 m ρ c main_v9 = (dat0 (V2 m ρ) c).arrAt 3 cfg0.N := W3_arr m ρ c 3
  rw [h9, Region2.array (V8 m ρ) c, entry2_input, entry2_feat, entry2_resWeights, entry2_resBias, entry2_thirdWeights,
    entry2_thirdBias, entry2_outWeights, entry2_outBias, h6, Region1.array (V5 m ρ) c, entry1_feat, entry1_weights,
    entry1_bias, h3, Region0.array (V2 m ρ) c, entry0_feat, entry0_weights, entry0_bias]
  unfold out Region2.G Region1.G Region0.G
  have e5 := rowOf_reshape (N := 128) (m ((c : Thread nD τ).loc main_arg5)) shapeCasts_S128_S1x128
  have e7 := rowOf_reshape (N := 128) (m ((c : Thread nD τ).loc main_arg7)) shapeCasts_S128_S1x128
  have e9 := rowOf_reshape (N := 128) (m ((c : Thread nD τ).loc main_arg9)) shapeCasts_S128_S1x128
  have e11 := rowOf_reshape (N := 128) (m ((c : Thread nD τ).loc main_arg11)) shapeCasts_S128_S1x128
  have e13 := rowOf_reshape (N := 40) (m ((c : Thread nD τ).loc main_arg13)) shapeCasts_S40_S1x40
  rw [e5, e7, e9, e11, e13]
  rfl

/-- THE RUN, READ: every weakly fair execution terminates without a fault, the result buffer ends at `out` of the
    launch contents of the arguments, and the arguments end as launched. -/
theorem run : θ_run defs (onTc (τ := τ) (main (F := Ideal))) ⟨m, fun _ => 0, ρ⟩ (fun r => ∀ c : Dev nD,
      r.2.mem ((c.tc : Thread nD τ).loc main_v33) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result m ρ c), (h c).2⟩) (Named.run_named m ρ)

end Cert.KernelIdeal.Result

end
-- ==== Proof.RefValue.lean ====
/-
  The reference program's result as one function of its argument arrays.

  The reference is a host program: its generated run states the result buffer as one nested term of host
  operations.  That term repeats three stages: the message-passing round `agg` (gather rows by the WRAPPED source
  index — a negative index counts from the end of the 50000 rows —, scale by the edge weights, sum into the
  destination rows), the dense layer (the host's product plus the bias broadcast to a row and along the rows),
  and the rectification (maximum against the zero constant).  Named, the result is

      denseOut (rect (dense agg₃ W3 b3 + dense x Wr br)) Wo bo,   agg_{i+1} = agg (rect (dense agg_i W_i b_i)),

  and over the extended reals each dense layer and rectification is the specification's `Dense.layer` /
  `Dense.rectLayer` at every index, so the result is `Dense.head` of the third aggregate.  The round `agg`
  itself is never opened.
-/
import proofs.«405072_j45311904973172_2_alg».proof.Proof.Gen.ReferenceIdeal.Run
import proofs.«405072_j45311904973172_2_alg».proof.Proof.LibDenseLayer

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.Dense Cert.LibDenseLayer

section Stages

variable {F : FTy → Type} [FloatOps F]

/-- The reference's reading of a source index: a negative index has 50000 added to it. -/
def wrap (src : IVec S640000 32) : IVec S640000 32 :=
  select (cmpi .slt src (broadcastInDim S640000 ![] bcast_S_S640000 (constantI S_ 32 0#32)))
    (addi src (broadcastInDim S640000 ![] bcast_S_S640000 (constantI S_ 32 50000#32))) src

/-- One round of message passing: row e of the gathered features, times weight e, summed into row dst e of a zero
    array. -/
def agg (x : FVec F S50000x128 .f32) (src dst : IVec S640000 32) (ew : FVec F S640000 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (Host.gather gather_S50000x128_S640000x1_S640000x128_1_0_n_n_0_1_1128 x
        (broadcastInDim S640000x1 ![0] bcast_S640000_S640000x1_0 src))
      (broadcastInDim S640000x128 ![0, 1] bcast_S640000x1_S640000x128_0_1
        (broadcastInDim S640000x1 ![0] bcast_S640000_S640000x1_0 ew)))

/-- A 128-column dense layer as the host computes it. -/
def dense (a : FVec F S50000x128 .f32) (w : FVec F S128x128 .f32) (b : FVec F S128 .f32) : FVec F S50000x128 .f32 :=
  addf (Host.dotGeneral dot_S50000x128_S128x128_S50000x128_1_0_0_1_n_n none a w)
    (broadcastInDim S50000x128 ![0, 1] bcast_S1x128_S50000x128_0_1 (broadcastInDim S1x128 ![1] bcast_S128_S1x128_1 b))

/-- The 40-column output layer as the host computes it. -/
def denseOut (a : FVec F S50000x128 .f32) (w : FVec F S128x40 .f32) (b : FVec F S40 .f32) : FVec F S50000x40 .f32 :=
  addf (Host.dotGeneral dot_S50000x128_S128x40_S50000x40_1_0_0_1_n_n none a w)
    (broadcastInDim S50000x40 ![0, 1] bcast_S1x40_S50000x40_0_1 (broadcastInDim S1x40 ![1] bcast_S40_S1x40_1 b))

/-- The rectification as the host computes it. -/
def rect (a : FVec F S50000x128 .f32) : FVec F S50000x128 .f32 :=
  maximumf a (broadcastInDim S50000x128 ![] bcast_S_S50000x128 (constant S_ .f32 0x00000000#32))

/-- The whole reference, over its named stages. -/
def out (x : FVec F S50000x128 .f32) (src dst : IVec S640000 32) (ew : FVec F S640000 .f32)
    (Wr : FVec F S128x128 .f32) (br : FVec F S128 .f32) (W1 : FVec F S128x128 .f32) (b1 : FVec F S128 .f32)
    (W2 : FVec F S128x128 .f32) (b2 : FVec F S128 .f32) (W3 : FVec F S128x128 .f32) (b3 : FVec F S128 .f32)
    (Wo : FVec F S128x40 .f32) (bo : FVec F S40 .f32) : FVec F S50000x40 .f32 :=
  denseOut (rect (addf
      (dense (agg (rect (dense (agg (rect (dense (agg x (wrap src) dst ew) W1 b1)) (wrap src) dst ew) W2 b2))
        (wrap src) dst ew) W3 b3)
      (dense x Wr br))) Wo bo

/-- The generated run's result term IS that composition, of the launch contents of the fourteen arguments. -/
theorem res_eq (m : (ℓ : Loc nD τ sig) → Buf (Elt F) ℓ) (c : Dev nD) :
    res_main_v62 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold res_main_v62 out denseOut dense rect agg wrap
  rfl

end Stages

/-! ## The stages over the extended reals -/

/-- The printed 50000×128 by 128×128 contraction is the plain rows-by-columns pattern. -/
theorem dot128 : dot_S50000x128_S128x128_S50000x128_1_0_0_1_n_n = DotDims.plain 50000 128 128 := rfl

/-- The printed 50000×128 by 128×40 contraction is the plain rows-by-columns pattern. -/
theorem dot40 : dot_S50000x128_S128x40_S50000x40_1_0_0_1_n_n = DotDims.plain 50000 128 40 := rfl

theorem dense_apply (a : FVec Ideal S50000x128 .f32) (w : FVec Ideal S128x128 .f32) (b : FVec Ideal S128 .f32)
    (j : S50000x128.Idx) : dense a w b j = layer a w b j := by
  unfold dense
  rw [dot128]
  exact hostLayer_apply none a w b bcast_S128_S1x128_1 bcast_S1x128_S50000x128_0_1 j

theorem denseOut_apply (a : FVec Ideal S50000x128 .f32) (w : FVec Ideal S128x40 .f32) (b : FVec Ideal S40 .f32)
    (j : S50000x40.Idx) : denseOut a w b j = layer a w b j := by
  unfold denseOut
  rw [dot40]
  exact hostLayer_apply none a w b bcast_S40_S1x40_1 bcast_S1x40_S50000x40_0_1 j

theorem rect_apply (a : FVec Ideal S50000x128 .f32) (j : S50000x128.Idx) : rect a j = max (a j) zeroWord := by
  unfold rect
  exact hostRect_apply a bcast_S_S50000x128 j

/-- A rectified host layer is the specification's rectified layer. -/
theorem rect_dense (a : FVec Ideal S50000x128 .f32) (w : FVec Ideal S128x128 .f32) (b : FVec Ideal S128 .f32) :
    rect (dense a w b) = rectLayer a w b := by
  funext j
  rw [rect_apply, dense_apply]
  rfl

/-- THE REFERENCE over the extended reals: the last stage of the input features and the third aggregate, each
    aggregate the round `agg` of the rectified layer of the one before. -/
theorem out_eq (x : FVec Ideal S50000x128 .f32) (src dst : IVec S640000 32) (ew : FVec Ideal S640000 .f32)
    (Wr : FVec Ideal S128x128 .f32) (br : FVec Ideal S128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (Wo : FVec Ideal S128x40 .f32) (bo : FVec Ideal S40 .f32) :
    out x src dst ew Wr br W1 b1 W2 b2 W3 b3 Wo bo
      = head x (agg (rectLayer (agg (rectLayer (agg x (wrap src) dst ew) W1 b1) (wrap src) dst ew) W2 b2) (wrap src) dst ew)
          Wr br W3 b3 Wo bo := by
  funext j
  unfold out
  rw [rect_dense, rect_dense, denseOut_apply]
  unfold head
  refine congrArg (fun a => layer a Wo bo j) (funext fun i => ?_)
  rw [rect_apply, addf_apply, dense_apply, dense_apply]

end Cert.ReferenceIdeal.RefValue

end
-- ==== Proof.Bridge.lean ====
/-
  The two programs compute the same function where every source index is non-negative.

  Both results are the last stage `Dense.head` of the input features and a third aggregate, each aggregate the
  message-passing round of the rectified layer of the one before.  The programs differ in one place only: the
  reference gathers by the WRAPPED source index (a negative index has the row count added), the kernel program by
  the index itself.  Where an index is non-negative, read signed, the wrap selects the index itself; so under
  that hypothesis the two rounds are the same function, and with them the two results.  The two programs print
  the gather and scatter patterns under their own names; the patterns are equal field by field.
-/
import proofs.«405072_j45311904973172_2_alg».proof.Proof.KernelValue
import proofs.«405072_j45311904973172_2_alg».proof.Proof.RefValue
import Idealize.ShloMosaic.Lib.DynamicIndex

noncomputable section

namespace Cert.Bridge

open Idealize.ShloMosaic Idealize.ShloMosaic.ValueIdx Cert.Dense

/-- The two programs' rounds are one function: the same host operations over the same patterns. -/
theorem agg_eq (x : FVec Ideal Cert.KernelIdeal.S50000x128 .f32) (src dst : IVec Cert.KernelIdeal.S640000 32)
    (ew : FVec Ideal Cert.KernelIdeal.S640000 .f32) :
    Cert.ReferenceIdeal.RefValue.agg (F := Ideal) x src dst ew = Cert.KernelIdeal.HostSide.agg (F := Ideal) x src dst ew := rfl

/-- Where every source index is non-negative the reference's wrap leaves it as it is. -/
theorem wrap_eq (src : IVec Cert.ReferenceIdeal.S640000 32) (h : ∀ e, 0 ≤ (src e).toInt) :
    Cert.ReferenceIdeal.RefValue.wrap src = src := by
  funext e
  show select (cmpi .slt src (constantI Cert.ReferenceIdeal.S640000 32 0#32)) _ src e = src e
  exact select_slt_zero_of_nonneg src _ src e (h e)

/-- THE TWO RESULTS AGREE where every source index is non-negative. -/
theorem out_eq (x : FVec Ideal Cert.KernelIdeal.S50000x128 .f32) (src dst : IVec Cert.KernelIdeal.S640000 32)
    (ew : FVec Ideal Cert.KernelIdeal.S640000 .f32)
    (Wr : FVec Ideal Cert.KernelIdeal.S128x128 .f32) (br : FVec Ideal Cert.KernelIdeal.S128 .f32)
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32)
    (W3 : FVec Ideal Cert.KernelIdeal.S128x128 .f32) (b3 : FVec Ideal Cert.KernelIdeal.S128 .f32)
    (Wo : FVec Ideal Cert.KernelIdeal.S128x40 .f32) (bo : FVec Ideal Cert.KernelIdeal.S40 .f32)
    (h : ∀ e, 0 ≤ (src e).toInt) :
    Cert.ReferenceIdeal.RefValue.out x src dst ew Wr br W1 b1 W2 b2 W3 b3 Wo bo
      = Cert.KernelIdeal.Result.out x src dst ew Wr br W1 b1 W2 b2 W3 b3 Wo bo := by
  rw [Cert.ReferenceIdeal.RefValue.out_eq, wrap_eq src h]
  unfold Cert.KernelIdeal.Result.out
  rw [agg_eq, agg_eq, agg_eq]

end Cert.Bridge

end
-- ==== Proof.PreDecode.lean ====
/-
  The precondition, read back: every source index is non-negative.

  The precondition is a conjunction of "every entry is finite" over the float inputs and, last, "every source
  index is at least zero, read as a signed word".  It prints as a chain of `and`s whose outermost right operand
  is the all-reduction of that signed comparison; so from "the precondition is 1" the last conjunct is 1, an
  all-reduction by `and` that is 1 had a 1 at every index, and a signed `≥ 0` that is 1 says the word, read
  signed, is non-negative.  No other conjunct is opened.
-/
import proofs.«405072_j45311904973172_2_alg».proof.Pre_finite_inputs
import Idealize.ShloMosaic.Lib.ReduceAll
import Idealize.ShloMosaic.Lib.ValueIdx

noncomputable section

namespace Cert.PreDecode

open Idealize.ShloMosaic Cert.Pre_finite_inputs

variable [Cert.Pre_finite_inputs.Facts]

open Cert.Pre_finite_inputs.Facts

variable {F : FTy → Type} [FloatOps F]

instance : Subsingleton S_.Idx := ⟨fun a b => funext fun d => d.elim0⟩

/-- The printed predicate is an `and` whose right operand is "all source indices are ≥ 0, signed". -/
theorem fn_last (a0 : FVec F S50000x128 .f32) (a1 : IVec S640000 32) (a2 : IVec S640000 32) (a3 : FVec F S640000 .f32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : FVec F S128x40 .f32) (a13 : FVec F S40 .f32) :
    ∃ X : IVec S_ 1, fn (F := F) a0 a1 a2 a3 a4 a5 a6 a7 a8 a9 a10 a11 a12 a13
      = andi X (Host.reduce IntOp.andi (cmpi .sge a1 (broadcastInDim S640000 ![] bcast_S_S640000 (constantI S_ 32 0#32)))
          (constantI S_ 1 1#1) reducesTo_S640000_S_d0 h_S_) :=
  ⟨_, rfl⟩

/-- Under the precondition every source index, read as a signed word, is non-negative. -/
theorem src_nonneg (a0 : FVec F S50000x128 .f32) (a1 : IVec S640000 32) (a2 : IVec S640000 32) (a3 : FVec F S640000 .f32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : FVec F S128x40 .f32) (a13 : FVec F S40 .f32)
    (h : fn (F := F) a0 a1 a2 a3 a4 a5 a6 a7 a8 a9 a10 a11 a12 a13 = fun _ => 1#1) (e : S640000.Idx) : 0 ≤ (a1 e).toInt := by
  obtain ⟨X, hX⟩ := fn_last a0 a1 a2 a3 a4 a5 a6 a7 a8 a9 a10 a11 a12 a13
  have h0 : IntOp.andi (X ValueIdx.ix0)
      (Host.reduce IntOp.andi (cmpi .sge a1 (broadcastInDim S640000 ![] bcast_S_S640000 (constantI S_ 32 0#32)))
        (constantI S_ 1 1#1) reducesTo_S640000_S_d0 h_S_ ValueIdx.ix0) = 1#1 := by
    have := congrFun h ValueIdx.ix0
    rw [hX] at this
    exact this
  have h1 := (IntOp.andi_eq_one.mp h0).2
  have h2 : IntOp.cmpi .sge (a1 e) 0#32 = 1#1 := Host.reduce_andi_all _ _ _ _ _ h1 e
  have h3 : (0#32 : BitVec 32).toInt ≤ (a1 e).toInt := IntOp.cmpi_sge.mp h2
  have z : (0#32 : BitVec 32).toInt = 0 := by decide
  omega

end Cert.PreDecode

end
-- ==== Proof.lean ====
/-
  A three-layer graph convolution with edge weights, a residual branch and a final classifier: the kernel program
  against its reference, over the extended reals.

  Both programs run three rounds of message passing (gather the source rows, scale by the edge weight, sum into
  the destination rows), each followed by a dense layer; the first two layers are rectified, the third is added to
  a residual dense layer of the input, rectified, and fed to the output layer.  The kernel program computes the
  dense stages in three kernel launches over ten blocks of 5000 rows each (the last launch fuses the residual
  layer, the third layer and the output layer); the reference computes them on the host.  Over the extended reals
  a narrowing of a matrix operand is the identity and both kinds of matrix product are the same sum, so each
  launch's result array is the corresponding host stage of the arrays it was entered with.

  The programs differ in how they read a NEGATIVE source index: the reference counts it from the end of the rows,
  the kernel program clamps it to row 0.  The precondition therefore says, beside "every float input is finite",
  that every source index is non-negative; only that last conjunct is used.

  The three frames are the generated ones (the reference's is its generated run with the result dropped), the
  idealization rewrote nothing, and the algebraic claim puts the kernel program's run, read as a value, beside the
  reference's generated run.
-/
import proofs.«405072_j45311904973172_2_alg».proof.Defs
import proofs.«405072_j45311904973172_2_alg».proof.Proof.Gen.Kernel
import proofs.«405072_j45311904973172_2_alg».proof.Proof.Gen.Kernel.Frame
import proofs.«405072_j45311904973172_2_alg».proof.Proof.Gen.KernelIdeal
import proofs.«405072_j45311904973172_2_alg».proof.Proof.Gen.KernelIdeal.Frame
import proofs.«405072_j45311904973172_2_alg».proof.Proof.Gen.ReferenceIdeal
import proofs.«405072_j45311904973172_2_alg».proof.Proof.Gen.ReferenceIdeal.Run
import proofs.«405072_j45311904973172_2_alg».proof.Proof.Gen.Pre_finite_inputs
import proofs.«405072_j45311904973172_2_alg».proof.Proof.Bridge
import proofs.«405072_j45311904973172_2_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- The kernel program's run ends with its result at `Result.out` of the arguments; the reference's run with its
    result at `RefValue.out` of its arguments; the arguments agree, every source index is non-negative by the
    precondition, and there the two functions agree. -/
theorem algebraic : Cert.algebraic_KernelIdeal_ReferenceIdeal := by
  intro m ρ m' ρ' hpre hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13⟩ := hagree c
  rw [Cert.ReferenceIdeal.RefValue.res_eq, g0, g1, g2, g3, g4, g5, g6, g7, g8, g9, g10, g11, g12, g13]
  exact Cert.Bridge.out_eq _ _ _ _ _ _ _ _ _ _ _ _ _ _
    (Cert.PreDecode.src_nonneg _ _ _ _ _ _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
